-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x4096 : Shape := ⟨3, ![8, 2048, 4096]⟩
abbrev S4096x4096 : Shape := ⟨2, ![4096, 4096]⟩
abbrev S4096 : Shape := ⟨1, ![4096]⟩
abbrev S_ : Shape := ⟨0, ![]⟩

class Facts : Prop where
  bcast_S_S8x2048x4096 : S_.BroadcastsInDim S8x2048x4096 (![] : Fin 0 → Fin S8x2048x4096.rank)
  reducesTo_S8x2048x4096_S_d0_1_2 : S8x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8x2048x4096 .f32) (main_arg1 : FVec F S4096x4096 .f32) (main_arg2 : FVec F S4096 .f32) : IVec S_ 1 :=
  let main_v0 : FVec F S8x2048x4096 .f32 := Host.absf main_arg0
  let main_cst : FVec F S_ .f32 := constant S_ .f32 0x7F800000#32
  let main_v1 : FVec F S8x2048x4096 .f32 := broadcastInDim S8x2048x4096 ![] bcast_S_S8x2048x4096 main_cst
  let main_v2 : IVec S8x2048x4096 1 := cmpf .olt main_v0 main_v1
  let main_c : IVec S_ 1 := constantI S_ 1 1#1
  let main_v3 : IVec S_ 1 := (fun x v => Host.reduce IntOp.andi x v reducesTo_S8x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8x2048x4096 : Shape := ⟨3, ![8, 2048, 4096]⟩
abbrev S4096x4096 : Shape := ⟨2, ![4096, 4096]⟩
abbrev S4096 : Shape := ⟨1, ![4096]⟩
abbrev S16384x4096 : Shape := ⟨2, ![16384, 4096]⟩
abbrev S512x4096 : Shape := ⟨2, ![512, 4096]⟩
abbrev S4096x512 : Shape := ⟨2, ![4096, 512]⟩
abbrev S512 : Shape := ⟨1, ![512]⟩
abbrev S512x512 : Shape := ⟨2, ![512, 512]⟩
abbrev S1x512 : Shape := ⟨2, ![1, 512]⟩

abbrev nBuf : Space → Nat
  | .hbm => 8
  | .vmem => 8
  | .smem => 0
  | _ => 0

abbrev bufTy : (tb : Table) → Fin (tcTables nBuf tb) → BufTy
  | .hbm, ⟨0, _⟩ => ⟨S8x2048x4096, .f32⟩
  | .hbm, ⟨1, _⟩ => ⟨S4096x4096, .f32⟩
  | .hbm, ⟨2, _⟩ => ⟨S4096, .f32⟩
  | .hbm, ⟨3, _⟩ => ⟨S16384x4096, .f32⟩
  | .hbm, ⟨4, _⟩ => ⟨S16384x4096, .bf16⟩
  | .hbm, ⟨5, _⟩ => ⟨S4096x4096, .bf16⟩
  | .hbm, ⟨6, _⟩ => ⟨S16384x4096, .f32⟩
  | .hbm, ⟨7, _⟩ => ⟨S8x2048x4096, .f32⟩
  | .local _ .vmem, ⟨0, _⟩ => ⟨S512x4096, .bf16⟩
  | .local _ .vmem, ⟨1, _⟩ => ⟨S512x4096, .bf16⟩
  | .local _ .vmem, ⟨2, _⟩ => ⟨S4096x512, .bf16⟩
  | .local _ .vmem, ⟨3, _⟩ => ⟨S4096x512, .bf16⟩
  | .local _ .vmem, ⟨4, _⟩ => ⟨S512, .f32⟩
  | .local _ .vmem, ⟨5, _⟩ => ⟨S512, .f32⟩
  | .local _ .vmem, ⟨6, _⟩ => ⟨S512x512, .f32⟩
  | .local _ .vmem, ⟨7, _⟩ => ⟨S512x512, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S8x2048x4096_S16384x4096 : S8x2048x4096.ShapeCasts S16384x4096
  bitsLt_bf16_f32 : FTy.bits .bf16 < FTy.bits .f32
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S512_S512_0 : ∀ a, (![0] : Fin 1 → Nat) a + S512.size a ≤ S512.size a
  h_S512 : 0 < S512.numel
  shapeCasts_S512_S1x512 : S512.ShapeCasts S1x512
  broadcasts_S1x512_S512x512 : S1x512.Broadcasts S512x512
  inb_S512x512_S512x512_0_0 : ∀ a, (![0, 0] : Fin 2 → Nat) a + S512x512.size a ≤ S512x512.size a
  h_S512x512 : 0 < S512x512.numel
  shapeCasts_S16384x4096_S8x2048x4096 : S16384x4096.ShapeCasts S8x2048x4096
  dot_S512x4096_S4096x512_S512x512_1_0_0_1_n_n_wf : DotDims.WF S512x4096 S4096x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S16384x4096.size a
  hwx0_0 : ∀ i : grid0.Coords, EltTy.bits .bf16 = 32 ∨ (Rect.block (s := S16384x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x4096.size a
  hwx0_1 : ∀ i : grid0.Coords, EltTy.bits .bf16 = 32 ∨ (Rect.block (s := S4096x4096) S4096x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S4096.size a
  hwx0_2 : ∀ i : grid0.Coords, EltTy.bits .f32 = 32 ∨ (Rect.block (s := S4096) S512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S16384x4096.size a
  hwx0_3 : ∀ i : grid0.Coords, EltTy.bits .f32 = 32 ∨ (Rect.block (s := S16384x4096) S512x512.size (cc0_transform_3 i) (hinb0_3 i)).WholeWords (EltTy.packing .f32)

variable [Facts₀]

def dot_S512x4096_S4096x512_S512x512_1_0_0_1_n_n : DotDims S512x4096 S4096x512 S512x512 where
  lhsContracting := [1]
  rhsContracting := [0]
  lhsNonContracting := [0]
  rhsNonContracting := [1]
  lhsBatch := []
  rhsBatch := []
  wf := dot_S512x4096_S4096x512_S512x512_1_0_0_1_n_n_wf

abbrev win0_0 : Pipeline.Window sig grid0 :=
  Pipeline.Window.ofSpec (Memref.whole main_v1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S4096x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x2048x4096 : Shape := ⟨3, ![8, 2048, 4096]⟩
abbrev S4096x4096 : Shape := ⟨2, ![4096, 4096]⟩
abbrev S4096 : Shape := ⟨1, ![4096]⟩
abbrev S1x1x4096 : Shape := ⟨3, ![1, 1, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S4096x4096, .f32⟩
  | .hbm, ⟨2, _⟩ => ⟨S4096, .f32⟩
  | .hbm, ⟨3, _⟩ => ⟨S8x2048x4096, .f32⟩
  | .hbm, ⟨4, _⟩ => ⟨S1x1x4096, .f32⟩
  | .hbm, ⟨5, _⟩ => ⟨S8x2048x4096, .f32⟩
  | .hbm, ⟨6, _⟩ => ⟨S8x2048x4096, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S8x2048x4096_0_1_2 : S1x1x4096.BroadcastsInDim S8x2048x4096 (![0, 1, 2] : Fin 3 → Fin S8x2048x4096.rank)
  dot_S8x2048x4096_S4096x4096_S8x2048x4096_2_0_01_1_n_n_wf : DotDims.WF S8x2048x4096 S4096x4096 S8x2048x4096 [2] [0] [0, 1] [1] [] []

variable [Facts₀]

def dot_S8x2048x4096_S4096x4096_S8x2048x4096_2_0_01_1_n_n : DotDims S8x2048x4096 S4096x4096 S8x2048x4096 where
  lhsContracting := [2]
  rhsContracting := [0]
  lhsNonContracting := [0, 1]
  rhsNonContracting := [1]
  lhsBatch := []
  rhsBatch := []
  wf := dot_S8x2048x4096_S4096x4096_S8x2048x4096_2_0_01_1_n_n_wf

class Facts : Prop extends Facts₀ where

variable [Facts]
-- ==== Proof.Spec.lean ====
/-
  The function both programs compute, over the extended reals: a dense layer
      out[b, s, u] = (∑ k, x[b, s, k] · w[k, u]) + bias[u]
  on x : [8, 2048, 4096], w : [4096, 4096], bias : [4096].  The kernel works on the 16384 rows
  r = b · 2048 + s of x laid out as a matrix, so the same function is stated on that matrix (`rows`), with the
  fact that re-laying the batched array as a matrix, applying `rows`, and re-laying the result back is the
  batched function (`cast_rows`): a reshape keeps row-major positions, and (b, s, ·) sits at row b · 2048 + s.
  No algebraic law is used: both sides are the same sum over the same index k, term by term.
-/
import Idealize.ShloMosaic.PureOps.Ideal
import Idealize.ShloMosaic.Lib.ValueIdx
import Idealize.ShloMosaic.Lib.Pipeline.Value

noncomputable section

open Idealize.ShloMosaic Idealize.ShloMosaic.ValueIdx

namespace Cert.Dense

/-- The layer on a matrix of rows: entry (r, u) is the row's inner product with column u of the weights, plus bias u. -/
def rows (a : FVec Ideal ⟨2, ![16384, 4096]⟩ .f32) (w : FVec Ideal ⟨2, ![4096, 4096]⟩ .f32)
    (b : FVec Ideal ⟨1, ![4096]⟩ .f32) : FVec Ideal ⟨2, ![16384, 4096]⟩ .f32 :=
  fun i => (∑ k : Fin 4096, a (ix2 (i 0) k) * w (ix2 k (i 1))) + b (ix1 (i 1))

/-- The layer on the batched array: entry (b, s, u) is ∑ k, x[b, s, k] · w[k, u], plus bias u. -/
def batched (x : FVec Ideal ⟨3, ![8, 2048, 4096]⟩ .f32) (w : FVec Ideal ⟨2, ![4096, 4096]⟩ .f32)
    (b : FVec Ideal ⟨1, ![4096]⟩ .f32) : FVec Ideal ⟨3, ![8, 2048, 4096]⟩ .f32 :=
  fun i => (∑ k : Fin 4096, x (ix3 (i 0) (i 1) k) * w (ix2 k (i 2))) + b (ix1 (i 2))

/-- The batched array re-laid as a matrix reads, at row b · 2048 + s and column k, the entry (b, s, k). -/
theorem cast_matrix_apply (x : FVec Ideal ⟨3, ![8, 2048, 4096]⟩ .f32)
    (h : (⟨3, ![8, 2048, 4096]⟩ : Shape).ShapeCasts ⟨2, ![16384, 4096]⟩)
    (p : Fin 8) (q : Fin 2048) (k : Fin 4096) (r : Fin 16384) (hr : r.val = p.val * 2048 + q.val) :
    shapeCast ⟨2, ![16384, 4096]⟩ x h (ix2 r k) = x (ix3 p q k) :=
  shapeCast_apply x h _ _ (by
    rw [Shape.rowMajor_val_two, Shape.rowMajor_val_three]
    show (p.val * 2048 + q.val) * 4096 + k.val = r.val * 4096 + k.val
    rw [hr])

/-- Re-lay the batched input as a matrix, apply the layer row by row, re-lay the result as a batched array: the
    batched layer. -/
theorem cast_rows (x : FVec Ideal ⟨3, ![8, 2048, 4096]⟩ .f32) (w : FVec Ideal ⟨2, ![4096, 4096]⟩ .f32)
    (b : FVec Ideal ⟨1, ![4096]⟩ .f32)
    (h1 : (⟨3, ![8, 2048, 4096]⟩ : Shape).ShapeCasts ⟨2, ![16384, 4096]⟩)
    (h2 : (⟨2, ![16384, 4096]⟩ : Shape).ShapeCasts ⟨3, ![8, 2048, 4096]⟩) :
    shapeCast ⟨3, ![8, 2048, 4096]⟩ (rows (shapeCast ⟨2, ![16384, 4096]⟩ x h1) w b) h2 = batched x w b := by
  funext i
  obtain ⟨p, q, u, rfl⟩ : ∃ (p : Fin 8) (q : Fin 2048) (u : Fin 4096), i = ix3 p q u := ⟨i 0, i 1, i 2, eq_ix3 i⟩
  have hlt : p.val * 2048 + q.val < 16384 := by have := p.isLt; have := q.isLt; omega
  rw [shapeCast_apply _ h2 (ix3 p q u) (ix2 (⟨p.val * 2048 + q.val, hlt⟩ : Fin 16384) u) (by
    rw [Shape.rowMajor_val_two, Shape.rowMajor_val_three]
    rfl)]
  show (∑ k : Fin 4096, shapeCast ⟨2, ![16384, 4096]⟩ x h1 (ix2 (⟨p.val * 2048 + q.val, hlt⟩ : Fin 16384) k) * w (ix2 k u)) + b (ix1 u)
    = (∑ k : Fin 4096, x (ix3 p q k) * w (ix2 k u)) + b (ix1 u)
  refine congrArg (· + b (ix1 u)) (Finset.sum_congr rfl fun k _ => ?_)
  rw [cast_matrix_apply x h1 p q k ⟨p.val * 2048 + q.val, hlt⟩ rfl]

end Cert.Dense

end
-- ==== Proof.RefValue.lean ====
/-
  The reference's result, read at an index: jnp's einsum is one `dot_general` contracting the last axis of x with
  the first of the weights, the bias is broadcast along the two leading axes, and the two are added. Entry
  (b, s, u) is therefore (∑ k, x[b, s, k] · w[k, u]) + bias[u]: the batched dense layer of the specification.
-/
import proofs.«139323_j40389872452002_1_alg».proof.Proof.Gen.ReferenceIdeal.Read
import proofs.«139323_j40389872452002_1_alg».proof.Proof.Spec

noncomputable section

open Idealize.ShloMosaic Idealize.ShloMosaic.ValueIdx

namespace Cert.ReferenceIdeal.RefValue

open Cert.ReferenceIdeal Cert.ReferenceIdeal.Read

/-- The reference's last stage is the batched dense layer of its three arguments. -/
theorem result_eq (x0 : FVec Ideal S8x2048x4096 .f32) (x1 : FVec Ideal S4096x4096 .f32) (x2 : FVec Ideal S4096 .f32) :
    val_main_v3 (F := Ideal) x0 x1 x2 = Cert.Dense.batched x0 x1 x2 := by
  funext i
  -- the operand indices of the contraction at output index i and contraction index k are (i₀, i₁, k) and (k, i₂)
  have el : ∀ k : Fin 4096, lidx_main_v0 i k = ix3 (i 0) (i 1) k := fun k => funext fun a => Fin.ext (by
    match a with
    | ⟨0, _⟩ => rfl
    | ⟨1, _⟩ => rfl
    | ⟨2, _⟩ => rfl)
  have er : ∀ k : Fin 4096, ridx_main_v0 i k = ix2 k (i 2) := fun k => funext fun a => Fin.ext (by
    match a with
    | ⟨0, _⟩ => rfl
    | ⟨1, _⟩ => rfl)
  -- the two broadcasts read the bias at the last coordinate
  have eb : idx_main_v1 (idx_main_v2 i) = ix1 (i 2) := funext fun a => Fin.ext (by
    match a with
    | ⟨0, _⟩ => rfl)
  rw [val_main_v3_apply, val_main_v0_apply, val_main_v2_apply, val_main_v1_apply]
  simp only [el, er, eb]
  rfl

end Cert.ReferenceIdeal.RefValue

end
-- ==== Proof.KernelBlock.lean ====
/-
  One grid point of the kernel, at the extended reals. The body loads a 512 × 4096 block of rows, a 4096 × 512 block
  of weight columns and 512 bias entries, multiplies the two blocks on the matrix unit into a zero accumulator, adds
  the bias to every row, and stores the 512 × 512 result. Entry (p, q) of what it stores is
      (∑ k, rows[p, k] · cols[k, q]) + bias[q]:
  the matrix product into a zero accumulator is the plain sum over the contracted axis, and the bias, kept as a
  1 × 512 row and broadcast down the 512 rows, is read at its column.
-/
import proofs.«139323_j40389872452002_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.ShloMosaic.ValueIdx

namespace Cert.KernelIdeal.Block

open Cert.KernelIdeal Cert.KernelIdeal.Gen

/-! ## The operand indices of the block product: output (i₀, i₁), contraction k ↦ (i₀, k) and (k, i₁) -/

theorem lhs_0 (i : S512x512.Idx) (q : dot_S512x4096_S4096x512_S512x512_1_0_0_1_n_n.contr.Idx) :
    (dot_S512x4096_S4096x512_S512x512_1_0_0_1_n_n.lhsIdx i q 0).val = (i 0).val := by
  unfold DotDims.lhsIdx
  rw [dif_neg (show ¬(0 : Fin S512x4096.rank) ∈ dot_S512x4096_S4096x512_S512x512_1_0_0_1_n_n.lhsBatch by decide), dif_pos (show (0 : Fin S512x4096.rank) ∈ dot_S512x4096_S4096x512_S512x512_1_0_0_1_n_n.lhsNonContracting by decide)]
  rfl
theorem lhs_1 (i : S512x512.Idx) (q : dot_S512x4096_S4096x512_S512x512_1_0_0_1_n_n.contr.Idx) :
    (dot_S512x4096_S4096x512_S512x512_1_0_0_1_n_n.lhsIdx i q 1).val = (q ⟨0, by decide⟩).val :=
  dot_S512x4096_S4096x512_S512x512_1_0_0_1_n_n.lhsIdx_val_of_single rfl i q
theorem rhs_0 (i : S512x512.Idx) (q : dot_S512x4096_S4096x512_S512x512_1_0_0_1_n_n.contr.Idx) :
    (dot_S512x4096_S4096x512_S512x512_1_0_0_1_n_n.rhsIdx i q 0).val = (q ⟨0, by decide⟩).val :=
  dot_S512x4096_S4096x512_S512x512_1_0_0_1_n_n.rhsIdx_val_of_single rfl i q
theorem rhs_1 (i : S512x512.Idx) (q : dot_S512x4096_S4096x512_S512x512_1_0_0_1_n_n.contr.Idx) :
    (dot_S512x4096_S4096x512_S512x512_1_0_0_1_n_n.rhsIdx i q 1).val = (i 1).val := by
  unfold DotDims.rhsIdx
  rw [dif_neg (show ¬(1 : Fin S4096x512.rank) ∈ dot_S512x4096_S4096x512_S512x512_1_0_0_1_n_n.rhsBatch by decide), dif_pos (show (1 : Fin S4096x512.rank) ∈ dot_S512x4096_S4096x512_S512x512_1_0_0_1_n_n.rhsNonContracting by decide)]
  rfl

/-- The block product into a zero accumulator, at (p, q): the inner product of row p with column q. -/
theorem product_at (a : FVec Ideal S512x4096 .bf16) (b : FVec Ideal S4096x512 .bf16) (p q : Fin 512) :
    matmul (F := Ideal) dot_S512x4096_S4096x512_S512x512_1_0_0_1_n_n none a b (constant (F := Ideal) S512x512 .f32 0x00000000#32) (ix2 p q)
      = ∑ k : Fin 4096, a (ix2 p k) * b (ix2 k q) := by
  simp only [matmul]
  rw [Ideal.matmul_constant_zero_apply, ← Equiv.sum_comp (contrEquiv1 dot_S512x4096_S4096x512_S512x512_1_0_0_1_n_n 4096 rfl rfl).symm]
  refine Finset.sum_congr rfl fun k _ => ?_
  have hk := contrEquiv1_symm_val dot_S512x4096_S4096x512_S512x512_1_0_0_1_n_n 4096 rfl rfl k
  have el : dot_S512x4096_S4096x512_S512x512_1_0_0_1_n_n.lhsIdx (ix2 p q) ((contrEquiv1 dot_S512x4096_S4096x512_S512x512_1_0_0_1_n_n 4096 rfl rfl).symm k) = ix2 p k := funext fun a => Fin.ext (by
    match a with
    | ⟨0, _⟩ => exact lhs_0 _ _
    | ⟨1, _⟩ => exact (lhs_1 _ _).trans hk)
  have er : dot_S512x4096_S4096x512_S512x512_1_0_0_1_n_n.rhsIdx (ix2 p q) ((contrEquiv1 dot_S512x4096_S4096x512_S512x512_1_0_0_1_n_n 4096 rfl rfl).symm k) = ix2 k q := funext fun a => Fin.ext (by
    match a with
    | ⟨0, _⟩ => exact (rhs_0 _ _).trans hk
    | ⟨1, _⟩ => exact rhs_1 _ _)
  rw [el, er]

/-- What the body stores, at (p, q): row p of the loaded rows against column q of the loaded weights, plus bias q. -/
theorem stored_at (x0 : Vec Ideal S512x4096 .bf16) (x1 : Vec Ideal S4096x512 .bf16) (x2 : Vec Ideal S512 .f32) (p q : Fin 512) :
    k0_pay1 (F := Ideal) x0 x1 x2 (ix2 p q) = (∑ k : Fin 4096, x0 (ix2 p k) * x1 (ix2 k q)) + x2 (ix1 q) := by
  unfold k0_pay1
  show matmul (F := Ideal) dot_S512x4096_S4096x512_S512x512_1_0_0_1_n_n none (shapeCast S512x4096 x0 shapeCasts_S512x4096_S512x4096) (shapeCast S4096x512 x1 shapeCasts_S4096x512_S4096x512)
        (constant (F := Ideal) S512x512 .f32 0x00000000#32) (ix2 p q)
      + broadcastTo S512x512 (shapeCast S1x512 x2 shapeCasts_S512_S1x512) broadcasts_S1x512_S512x512 (ix2 p q) = _
  rw [shapeCast_self, shapeCast_self, product_at, broadcastTo_1b_ab_apply, shapeCast_a_1a_apply]

end Cert.KernelIdeal.Block

end
-- ==== Proof.KernelArray.lean ====
/-
  From grid points to the whole matrix. The grid has 32 × 8 points; point (i, j) reads rows 512·i … 512·i+511 of the
  row matrix (all 4096 columns), columns 512·j … 512·j+511 of the weights (all 4096 rows) and the same 512 bias
  entries, and writes the 512 × 512 block (i, j) of the result. Entry (p, q) of that block is the dense layer's entry
  (512·i + p, 512·j + q) of the arrays the region finds; the 256 blocks tile the 16384 × 4096 result, so after the
  region the result array is the dense layer of those arrays, row by row.
-/
import proofs.«139323_j40389872452002_1_alg».proof.Proof.Gen.KernelIdeal.Frame
import proofs.«139323_j40389872452002_1_alg».proof.Proof.KernelBlock
import proofs.«139323_j40389872452002_1_alg».proof.Proof.Spec
import Idealize.ShloMosaic.Lib.Pipeline.Value

noncomputable section

open Idealize.ShloMosaic Idealize.ShloMosaic.TcCoe Idealize.ShloMosaic.ValueIdx Idealize.SL.Sem
open Idealize.ShloMosaic.Pipeline (Dat)

namespace Cert.KernelIdeal.Array

open Cert.KernelIdeal Cert.KernelIdeal.Gen

variable (m : (ℓ : Loc nD τ sig) → Buf (Elt Ideal) ℓ)

theorem off2 : (![0, 0] : Fin 2 → Nat) = fun _ => 0 := funext fun a => by fin_cases a <;> rfl
theorem off1 : (![0] : Fin 1 → Nat) = fun _ => 0 := funext fun a => by fin_cases a <;> rfl

/-- What one point stores is the dense layer's entries, whenever the loaded blocks are the arrays' entries the
    layer reads there: over variables of the literal block and array types. -/
theorem block_entry (x0 : Vec Ideal S512x4096 .bf16) (x1 : Vec Ideal S4096x512 .bf16) (x2 : Vec Ideal S512 .f32)
    (A : FVec Ideal S16384x4096 .f32) (W : FVec Ideal S4096x4096 .f32) (B : FVec Ideal S4096 .f32)
    (j : S512x512.Idx) (i : S16384x4096.Idx)
    (h0 : ∀ k : Fin 4096, x0 (ix2 (j 0) k) = A (ix2 (i 0) k))
    (h1 : ∀ k : Fin 4096, x1 (ix2 k (j 1)) = W (ix2 k (i 1)))
    (h2 : x2 (ix1 (j 1)) = B (ix1 (i 1))) :
    k0_pay1 (F := Ideal) x0 x1 x2 j = Cert.Dense.rows A W B i := by
  obtain ⟨p, q, rfl⟩ : ∃ (p q : Fin 512), j = ix2 p q := ⟨j 0, j 1, eq_ix2 j⟩
  have h0' : ∀ k : Fin 4096, x0 (ix2 p k) = A (ix2 (i 0) k) := h0
  have h1' : ∀ k : Fin 4096, x1 (ix2 k q) = W (ix2 k (i 1)) := h1
  have h2' : x2 (ix1 q) = B (ix1 (i 1)) := h2
  rw [Cert.KernelIdeal.Block.stored_at]
  show _ = (∑ k : Fin 4096, A (ix2 (i 0) k) * W (ix2 k (i 1))) + B (ix1 (i 1))
  rw [h2']
  exact congrArg (· + B (ix1 (i 1))) (Finset.sum_congr rfl fun k _ => by rw [h0' k, h1' k])

/-- The printed index maps over the grid: the row block moves with the result's first block index and stays at
    column block 0; the weight block stays at row block 0 and moves with the result's second block index, as does the
    bias block; the result's block indices stay below 32 and 8. -/
theorem idx_facts : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = win0_3.index t (1 : Fin 2)
    ∧ win0_2.index t (0 : Fin 1) = win0_3.index t (1 : Fin 2)
    ∧ win0_3.index t (0 : Fin 2) ≤ 31 ∧ win0_3.index t (1 : Fin 2) ≤ 7 :=
  (by decide +kernel : ∀ t : Fin grid0.N, _)

/-- The points run through the result's blocks row by row: point t writes block (t / 8, t % 8). -/
theorem idx_closed : ∀ t : Fin cfg0.N, win0_3.index t (0 : Fin 2) = t.val / 8 ∧ win0_3.index t (1 : Fin 2) = t.val % 8 :=
  (by decide +kernel : ∀ t : Fin grid0.N, _)

/-- What point t writes back is block t of the dense layer of the arrays the region finds. -/
theorem flushed_eq (c : Dev nD) (t : Fin cfg0.N) :
    (dats m 0 c).flushed 3 t
      = ((cfg0.win 3).blk t).view.read (Elt Ideal) (Cert.Dense.rows (V m c main_v1) (V m c main_v2) (V m c main_arg2)) := by
  show (cfg0.win 3).cut (grid0.coords t) ((dats m 0 c).after 3 t) = _
  rw [after0_3]
  unfold out0_3
  rw [View.canon_unit_zero off2]
  simp only [View.ld_unit_zero (S := S512x4096) off2, View.ld_unit_zero (S := S4096x512) off2, View.ld_unit_zero (S := S512) off1]
  obtain ⟨e0, e1, e2, e3, e4, e5, e6⟩ := idx_facts t
  funext j
  show k0_pay1 (F := Ideal) (iblk m c 0 t) (iblk m c 1 t) (iblk m c 2 t) j
    = Cert.Dense.rows (V m c main_v1) (V m c main_v2) (V m c main_arg2) (((cfg0.win 3).blk t).view.emb j)
  refine block_entry (iblk m c 0 t) (iblk m c 1 t) (iblk m c 2 t) (V m c main_v1) (V m c main_v2) (V m c main_arg2) j
    (((cfg0.win 3).blk t).view.emb j) (fun k => ?_) (fun k => ?_) ?_
  · show V m c main_v1 (((cfg0.win 0).blk t).view.emb (ix2 (j 0) k)) = V m c main_v1 (ix2 ((((cfg0.win 3).blk t).view.emb j) 0) k)
    refine congrArg (V m c main_v1) (funext fun a => Fin.ext ?_)
    match a with
    | ⟨0, _⟩ => show win0_0.index t (0 : Fin 2) * 512 + 1 * (j 0).val = win0_3.index t (0 : Fin 2) * 512 + 1 * (j 0).val; omega
    | ⟨1, _⟩ => show win0_0.index t (1 : Fin 2) * 4096 + 1 * k.val = k.val; omega
  · show V m c main_v2 (((cfg0.win 1).blk t).view.emb (ix2 k (j 1))) = V m c main_v2 (ix2 k ((((cfg0.win 3).blk t).view.emb j) 1))
    refine congrArg (V m c main_v2) (funext fun a => Fin.ext ?_)
    match a with
    | ⟨0, _⟩ => show win0_1.index t (0 : Fin 2) * 4096 + 1 * k.val = k.val; omega
    | ⟨1, _⟩ => show win0_1.index t (1 : Fin 2) * 512 + 1 * (j 1).val = win0_3.index t (1 : Fin 2) * 512 + 1 * (j 1).val; omega
  · show V m c main_arg2 (((cfg0.win 2).blk t).view.emb (ix1 (j 1))) = V m c main_arg2 (ix1 ((((cfg0.win 3).blk t).view.emb j) 1))
    refine congrArg (V m c main_arg2) (funext fun a => Fin.ext ?_)
    match a with
    | ⟨0, _⟩ => show win0_2.index t (0 : Fin 1) * 512 + 1 * (j 1).val = win0_3.index t (1 : Fin 2) * 512 + 1 * (j 1).val; omega

/-- An index of the result is in point t's block iff each coordinate is in the block's range on its axis. -/
theorem mem_blk (t : Fin cfg0.N) (i : S16384x4096.Idx) :
    i ∈ ((cfg0.win 3).blk t).view.set ↔ ∀ a : Fin 2, win0_3.index t a * S512x512.size a ≤ (i a).val ∧ (i a).val < win0_3.index t a * S512x512.size a + S512x512.size a := by
  show i ∈ ((View.whole main_v3).slice (win0_3.rect t)).set ↔ _
  rw [View.set_slice_whole, Rect.mem_set_unit]
  exact Iff.rfl

/-- The blocks tile the result: (r, u) lies in block (r / 512, u / 512), which point (r / 512) · 8 + u / 512 writes. -/
theorem cover (i : S16384x4096.Idx) : ∃ t : Fin cfg0.N, (cfg0.win 3).flush t = true ∧ i ∈ ((cfg0.win 3).blk t).view.set := by
  have hi0 : (i 0).val < 16384 := (i 0).isLt
  have hi1 : (i 1).val < 4096 := (i 1).isLt
  have hN : (i 0).val / 512 * 8 + (i 1).val / 512 < cfg0.N := by
    show _ < grid0.N
    rw [N_0]
    omega
  obtain ⟨t, ht⟩ : ∃ t : Fin cfg0.N, t.val = (i 0).val / 512 * 8 + (i 1).val / 512 := ⟨⟨_, hN⟩, rfl⟩
  obtain ⟨c0, c1⟩ := idx_closed t
  have q0 : win0_3.index t (0 : Fin 2) = (i 0).val / 512 := by rw [c0, ht]; omega
  have q1 : win0_3.index t (1 : Fin 2) = (i 1).val / 512 := by rw [c1, ht]; omega
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 512 ≤ (i 1).val ∧ (i 1).val < win0_3.index t (1 : Fin 2) * 512 + 512; omega

/-- After the region the result array is the dense layer, row by row, of the arrays the region finds. -/
theorem final (c : Dev nD) :
    (dats m 0 c).arrAt 3 cfg0.N = Cert.Dense.rows (V m c main_v1) (V m c main_v2) (V m c main_arg2) :=
  (dats m 0 c).arrAt_eq_of_cover 3 _ (fun t _ => flushed_eq m c t) cover

end Cert.KernelIdeal.Array

end
-- ==== Proof.KernelWhole.lean ====
/-
  The whole idealized kernel program. Before the region the host re-lays x : [8, 2048, 4096] as a 16384 × 4096 matrix
  and narrows it and the weights to bf16; over the extended reals a change of float format is the identity, so the
  region finds the re-laid x, the weights and the bias themselves. The region leaves the dense layer of those, row by
  row, in its 16384 × 4096 result, and the one host line after it re-lays that as [8, 2048, 4096]: by the
  specification's `cast_rows` the program's result is the batched dense layer of its three arguments.
-/
import proofs.«139323_j40389872452002_1_alg».proof.Proof.Gen.KernelIdeal.Frame
import proofs.«139323_j40389872452002_1_alg».proof.Proof.KernelArray
import proofs.«139323_j40389872452002_1_alg».proof.Proof.Spec
import Idealize.ShloMosaic.Lib.StableHlo.Run

noncomputable section

open Idealize.ShloMosaic Idealize.ShloMosaic.TcCoe Idealize.ShloMosaic.ValueIdx Idealize.SL.Sem
open Idealize.ShloMosaic.Pipeline (Dat)

namespace Cert.KernelIdeal.Whole

open Cert.KernelIdeal Cert.KernelIdeal.Gen

variable (m : (ℓ : Loc nD τ sig) → Buf (Elt Ideal) ℓ) (ρ : Dev nD → PrngReg)

/-- The row matrix the region finds is x re-laid as 16384 × 4096 (the narrowing to bf16 is the identity). -/
theorem found_rows (c : Dev nD) :
    (V m c main_v1 : S16384x4096.Idx → EReal)
      = shapeCast S16384x4096 (m ((c : Thread nD τ).loc main_arg0)) shapeCasts_S8x2048x4096_S16384x4096 := by
  show StableHlo.after hostOps0 (fun b => m (c, b)) (Proc.devRef .tc main_v1) = _
  after_results
  rfl

/-- The weights the region finds are the weights argument (the narrowing to bf16 is the identity). -/
theorem found_weights (c : Dev nD) :
    (V m c main_v2 : S4096x4096.Idx → EReal) = m ((c : Thread nD τ).loc main_arg1) := by
  show StableHlo.after hostOps0 (fun b => m (c, b)) (Proc.devRef .tc main_v2) = _
  after_results
  rfl

/-- The program's result buffer after the host line that follows the region: the region's result re-laid. -/
theorem tail_eq (c : Dev nD) :
    Pipeline.afterTail₀ cfgs (dats m) 0 (V0 m) [hostOps1] c main_v4
      = shapeCast S8x2048x4096 ((dats m 0 c).arrAt 3 cfg0.N) shapeCasts_S16384x4096_S8x2048x4096 := by
  unfold Pipeline.afterTail₀
  show StableHlo.after hostOps1 _ (Proc.devRef .tc main_v4) = _
  after_results
  exact congrArg (fun a => shapeCast S8x2048x4096 a shapeCasts_S16384x4096_S8x2048x4096)
    (Pipeline.withArrays_arr spec0 launch0.win.arr_inj c _ _ 3)

/-- The program's result is the batched dense layer of its three arguments. -/
theorem result_eq (c : Dev nD) :
    Pipeline.afterTail₀ cfgs (dats m) 0 (V0 m) [hostOps1] c main_v4
      = Cert.Dense.batched (m ((c : Thread nD τ).loc main_arg0)) (m ((c : Thread nD τ).loc main_arg1)) (m ((c : Thread nD τ).loc main_arg2)) := by
  rw [tail_eq, Cert.KernelIdeal.Array.final, found_rows, found_weights, V_main_arg2]
  exact Cert.Dense.cast_rows _ _ _ _ _

/-- Every weakly fair execution of the idealized kernel program terminates with its result at the batched dense layer
    of the arguments, and the arguments unchanged. -/
theorem run : θ_run defs (onTc (τ := τ) (main (F := Ideal))) ⟨m, fun _ => 0, ρ⟩ fun r => ∀ c : Dev nD,
      r.2.mem ((c.tc : Thread nD τ).loc main_v4)
        = Cert.Dense.batched (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).2 main_v4 (Pipeline.mem_restRefs_of main_v4 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c)))⟩)
    (run_main m ρ)

end Cert.KernelIdeal.Whole

end
-- ==== Proof.lean ====
/-
  A dense layer, out[b, s, u] = (∑ k, x[b, s, k] · w[k, u]) + bias[u], computed by a tiled kernel (x re-laid as
  16384 rows, one 512 × 512 block of the result per grid point from a full-depth block product plus the bias, the
  result re-laid back) against jnp's einsum plus bias.

  Over the extended reals both programs end with exactly that function of their arguments
  (`Cert.Dense.batched`, Proof/Spec.lean): the kernel by Proof/KernelBlock.lean (one point's stored block, entry by
  entry), Proof/KernelArray.lean (the blocks tile the result matrix) and Proof/KernelWhole.lean (the host lines around the
  region: re-laying keeps row-major positions, narrowing a float is the identity); the reference by
  Proof/RefValue.lean (its contraction read at an index, its bias broadcast read at the last coordinate). The two sums
  run over the same index with the same terms, so no law of the extended reals, and no finiteness, is needed.
  The three frames are the generated ones (the reference's is its run with the result dropped); the idealization
  rewrote nothing, so `preserves` has nothing to show.
-/
import proofs.«139323_j40389872452002_1_alg».proof.Defs
import proofs.«139323_j40389872452002_1_alg».proof.Proof.Gen.Kernel
import proofs.«139323_j40389872452002_1_alg».proof.Proof.Gen.Kernel.Frame
import proofs.«139323_j40389872452002_1_alg».proof.Proof.Gen.KernelIdeal
import proofs.«139323_j40389872452002_1_alg».proof.Proof.Gen.KernelIdeal.Frame
import proofs.«139323_j40389872452002_1_alg».proof.Proof.Gen.ReferenceIdeal
import proofs.«139323_j40389872452002_1_alg».proof.Proof.Gen.ReferenceIdeal.Run
import proofs.«139323_j40389872452002_1_alg».proof.Proof.Gen.ReferenceIdeal.Read
import proofs.«139323_j40389872452002_1_alg».proof.Proof.Gen.Pre_finite_inputs
import proofs.«139323_j40389872452002_1_alg».proof.Proof.RefValue
import proofs.«139323_j40389872452002_1_alg».proof.Proof.KernelWhole
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on x, the weights and the bias, both idealized programs end with the batched dense layer
    of those three arrays in their result. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefValue.result_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
